-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S64x64x128x128 .f32) (main_arg1 : FVec F S64x64 .f32) (main_arg2 : FVec F S256x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64x64 : Shape := ⟨3, ![64, 64, 64]⟩
abbrev S1x64x128x128 : Shape := ⟨4, ![1, 64, 128, 128]⟩
abbrev S1x64x64 : Shape := ⟨3, ![1, 64, 64]⟩
abbrev S64x128x128 : Shape := ⟨3, ![64, 128, 128]⟩
abbrev S64x128 : Shape := ⟨2, ![64, 128]⟩
abbrev S128x128 : Shape := ⟨2, ![128, 128]⟩
abbrev S64x1x128 : Shape := ⟨3, ![64, 1, 128]⟩
abbrev S1x64x128 : Shape := ⟨3, ![1, 64, 128]⟩
abbrev S64x64x128 : Shape := ⟨3, ![64, 64, 128]⟩
abbrev S1x1x128 : Shape := ⟨3, ![1, 1, 128]⟩
abbrev S4096x128 : Shape := ⟨2, ![4096, 128]⟩
abbrev S4096x64 : Shape := ⟨2, ![4096, 64]⟩
abbrev S1x64 : Shape := ⟨2, ![1, 64]⟩
abbrev S4096x1 : Shape := ⟨2, ![4096, 1]⟩
abbrev S1x1 : Shape := ⟨2, ![1, 1]⟩
abbrev S64x64x1 : Shape := ⟨3, ![64, 64, 1]⟩

abbrev nBuf : Space → Nat
  | .hbm => 9
  | .vmem => 11
  | .smem => 0
  | _ => 0

abbrev bufTy : (tb : Table) → Fin (tcTables nBuf tb) → BufTy
  | .hbm, ⟨0, _⟩ => ⟨S64x64x128x128, .f32⟩
  | .hbm, ⟨1, _⟩ => ⟨S64x64, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S64x64x64, .f32⟩
  | .local _ .vmem, ⟨0, _⟩ => ⟨S1x64x128x128, .f32⟩
  | .local _ .vmem, ⟨1, _⟩ => ⟨S1x64x128x128, .f32⟩
  | .local _ .vmem, ⟨2, _⟩ => ⟨S64x64, .f32⟩
  | .local _ .vmem, ⟨3, _⟩ => ⟨S256x128, .f32⟩
  | .local _ .vmem, ⟨4, _⟩ => ⟨S128, .f32⟩
  | .local _ .vmem, ⟨5, _⟩ => ⟨S128x64, .f32⟩
  | .local _ .vmem, ⟨6, _⟩ => ⟨S64, .f32⟩
  | .local _ .vmem, ⟨7, _⟩ => ⟨S64x1, .f32⟩
  | .local _ .vmem, ⟨8, _⟩ => ⟨S1, .f32⟩
  | .local _ .vmem, ⟨9, _⟩ => ⟨S1x64x64, .f32⟩
  | .local _ .vmem, ⟨10, _⟩ => ⟨S1x64x64, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  reduces_S64x128x128_S64x128 : S64x128x128.Reduces [2] S64x128
  bitsLt_bf16_f32 : FTy.bits .bf16 < FTy.bits .f32
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S128_S128_0 : ∀ a, (![0] : Fin 1 → Nat) a + S128.size a ≤ S128.size a
  h_S128 : 0 < S128.numel
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  shapeCasts_S128_S1x1x128 : S128.ShapeCasts S1x1x128
  broadcasts_S1x1x128_S64x64x128 : S1x1x128.Broadcasts S64x64x128
  shapeCasts_S64x64x128_S4096x128 : S64x64x128.ShapeCasts S4096x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S64x64x1 : S4096x1.ShapeCasts S64x64x1
  shapeCasts_S64x64x1_S64x64 : S64x64x1.ShapeCasts S64x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  iota_S64x64_d0_w32 : S64x64.Iotas .tc 32 [0]
  iota_S64x64_d1_w32 : S64x64.Iotas .tc 32 [1]
  reduces_S64x64_S64 : S64x64.Reduces [1] S64
  shapeCasts_S64_S64x1 : S64.ShapeCasts S64x1
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S64x128_S128x128_S64x128_1_0_0_1_n_n_wf : DotDims.WF S64x128 S128x128 S64x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S64x64x128x128.size a
  hwx0_0 : ∀ i : grid0.Coords, EltTy.bits .f32 = 32 ∨ (Rect.block (s := S64x64x128x128) S1x64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64.size a ≤ S64x64x64.size a
  hwx0_8 : ∀ i : grid0.Coords, EltTy.bits .f32 = 32 ∨ (Rect.block (s := S64x64x64) S1x64x64.size (cc0_transform_8 i) (hinb0_8 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S64x64 : Shape := ⟨2, ![64, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S64x64x128 : Shape := ⟨3, ![64, 64, 128]⟩
abbrev S128x128 : Shape := ⟨2, ![128, 128]⟩
abbrev S64x64x1x128 : Shape := ⟨4, ![64, 64, 1, 128]⟩
abbrev S64x1x64x128 : Shape := ⟨4, ![64, 1, 64, 128]⟩
abbrev S64x64x64x128 : Shape := ⟨4, ![64, 64, 64, 128]⟩
abbrev S1x1x1x128 : Shape := ⟨4, ![1, 1, 1, 128]⟩
abbrev S64x64x64x64 : Shape := ⟨4, ![64, 64, 64, 64]⟩
abbrev S1x1x1x64 : Shape := ⟨4, ![1, 1, 1, 64]⟩
abbrev S64x64x64x1 : Shape := ⟨4, ![64, 64, 64, 1]⟩
abbrev S1x1x1x1 : Shape := ⟨4, ![1, 1, 1, 1]⟩
abbrev S64x64x64 : Shape := ⟨3, ![64, 64, 64]⟩
abbrev S1x64x64 : Shape := ⟨3, ![1, 64, 64]⟩
abbrev S64x64x1 : Shape := ⟨3, ![64, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S64x64, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .f32⟩
  | .hbm, ⟨9, _⟩ => ⟨S64x64x128, .f32⟩
  | .hbm, ⟨10, _⟩ => ⟨S_, .f32⟩
  | .hbm, ⟨11, _⟩ => ⟨S64x64x128, .f32⟩
  | .hbm, ⟨12, _⟩ => ⟨S64x64x128, .f32⟩
  | .hbm, ⟨13, _⟩ => ⟨S128x128, .f32⟩
  | .hbm, ⟨14, _⟩ => ⟨S128x128, .f32⟩
  | .hbm, ⟨15, _⟩ => ⟨S64x64x128, .f32⟩
  | .hbm, ⟨16, _⟩ => ⟨S64x64x128, .f32⟩
  | .hbm, ⟨17, _⟩ => ⟨S64x64x1x128, .f32⟩
  | .hbm, ⟨18, _⟩ => ⟨S64x1x64x128, .f32⟩
  | .hbm, ⟨19, _⟩ => ⟨S64x64x64x128, .f32⟩
  | .hbm, ⟨20, _⟩ => ⟨S64x64x64x128, .f32⟩
  | .hbm, ⟨21, _⟩ => ⟨S64x64x64x128, .f32⟩
  | .hbm, ⟨22, _⟩ => ⟨S1x1x1x128, .f32⟩
  | .hbm, ⟨23, _⟩ => ⟨S64x64x64x128, .f32⟩
  | .hbm, ⟨24, _⟩ => ⟨S64x64x64x128, .f32⟩
  | .hbm, ⟨25, _⟩ => ⟨S_, .f32⟩
  | .hbm, ⟨26, _⟩ => ⟨S64x64x64x128, .f32⟩
  | .hbm, ⟨27, _⟩ => ⟨S64x64x64x128, .f32⟩
  | .hbm, ⟨28, _⟩ => ⟨S64x64x64x64, .f32⟩
  | .hbm, ⟨29, _⟩ => ⟨S1x1x1x64, .f32⟩
  | .hbm, ⟨30, _⟩ => ⟨S64x64x64x64, .f32⟩
  | .hbm, ⟨31, _⟩ => ⟨S64x64x64x64, .f32⟩
  | .hbm, ⟨32, _⟩ => ⟨S_, .f32⟩
  | .hbm, ⟨33, _⟩ => ⟨S64x64x64x64, .f32⟩
  | .hbm, ⟨34, _⟩ => ⟨S64x64x64x64, .f32⟩
  | .hbm, ⟨35, _⟩ => ⟨S64x64x64x1, .f32⟩
  | .hbm, ⟨36, _⟩ => ⟨S1x1x1x1, .f32⟩
  | .hbm, ⟨37, _⟩ => ⟨S64x64x64x1, .f32⟩
  | .hbm, ⟨38, _⟩ => ⟨S64x64x64x1, .f32⟩
  | .hbm, ⟨39, _⟩ => ⟨S64x64x64, .f32⟩
  | .hbm, ⟨40, _⟩ => ⟨S1x64x64, .f32⟩
  | .hbm, ⟨41, _⟩ => ⟨S_, .f32⟩
  | .hbm, ⟨42, _⟩ => ⟨S1x64x64, .f32⟩
  | .hbm, ⟨43, _⟩ => ⟨S1x64x64, .f32⟩
  | .hbm, ⟨44, _⟩ => ⟨S_, .f32⟩
  | .hbm, ⟨45, _⟩ => ⟨S64x64x64, .f32⟩
  | .hbm, ⟨46, _⟩ => ⟨S64x64x64, .f32⟩
  | .hbm, ⟨47, _⟩ => ⟨S64x64x64, .f32⟩
  | .hbm, ⟨48, _⟩ => ⟨S64x64x64, .f32⟩
  | .hbm, ⟨49, _⟩ => ⟨S64x64x64, .f32⟩
  | .hbm, ⟨50, _⟩ => ⟨S64x64x64, .f32⟩
  | .hbm, ⟨51, _⟩ => ⟨S_, .f32⟩
  | .hbm, ⟨52, _⟩ => ⟨S64x64x64, .f32⟩
  | .hbm, ⟨53, _⟩ => ⟨S64x64x64, .f32⟩
  | .hbm, ⟨54, _⟩ => ⟨S_, .f32⟩
  | .hbm, ⟨55, _⟩ => ⟨S64x64x64, .f32⟩
  | .hbm, ⟨56, _⟩ => ⟨S64x64x64, .f32⟩
  | .hbm, ⟨57, _⟩ => ⟨S64x64, .i32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S64x64, .f32⟩
  | .hbm, ⟨64, _⟩ => ⟨S1x64x64, .f32⟩
  | .hbm, ⟨65, _⟩ => ⟨S64x64x64, .f32⟩
  | .hbm, ⟨66, _⟩ => ⟨S64x64x64, .f32⟩
  | .hbm, ⟨67, _⟩ => ⟨S_, .f32⟩
  | .hbm, ⟨68, _⟩ => ⟨S64x64, .f32⟩
  | .hbm, ⟨69, _⟩ => ⟨S64x64x1, .f32⟩
  | .hbm, ⟨70, _⟩ => ⟨S_, .f32⟩
  | .hbm, ⟨71, _⟩ => ⟨S64x64x1, .f32⟩
  | .hbm, ⟨72, _⟩ => ⟨S64x64x1, .f32⟩
  | .hbm, ⟨73, _⟩ => ⟨S64x64x64, .f32⟩
  | .hbm, ⟨74, _⟩ => ⟨S64x64x64, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_call2_cst : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  reducesTo_S64x64x128x128_S64x64x128_d3 : S64x64x128x128.ReducesTo [3] S64x64x128
  h_S_ : 0 < S_.numel
  bcast_S_S64x64x128 : S_.BroadcastsInDim S64x64x128 (![] : Fin 0 → Fin S64x64x128.rank)
  slices_S256x128_S128x128_0_0 : S256x128.Slices ![0, 0] S128x128
  slices_S256x128_S128x128_128_0 : S256x128.Slices ![128, 0] S128x128
  bcast_S64x64x128_S64x64x1x128_0_1_3 : S64x64x128.BroadcastsInDim S64x64x1x128 (![0, 1, 3] : Fin 3 → Fin S64x64x1x128.rank)
  bcast_S64x64x128_S64x1x64x128_0_2_3 : S64x64x128.BroadcastsInDim S64x1x64x128 (![0, 2, 3] : Fin 3 → Fin S64x1x64x128.rank)
  bcast_S64x64x1x128_S64x64x64x128_0_1_2_3 : S64x64x1x128.BroadcastsInDim S64x64x64x128 (![0, 1, 2, 3] : Fin 4 → Fin S64x64x64x128.rank)
  bcast_S64x1x64x128_S64x64x64x128_0_1_2_3 : S64x1x64x128.BroadcastsInDim S64x64x64x128 (![0, 1, 2, 3] : Fin 4 → Fin S64x64x64x128.rank)
  bcast_S128_S1x1x1x128_3 : S128.BroadcastsInDim S1x1x1x128 (![3] : Fin 1 → Fin S1x1x1x128.rank)
  bcast_S1x1x1x128_S64x64x64x128_0_1_2_3 : S1x1x1x128.BroadcastsInDim S64x64x64x128 (![0, 1, 2, 3] : Fin 4 → Fin S64x64x64x128.rank)
  bcast_S_S64x64x64x128 : S_.BroadcastsInDim S64x64x64x128 (![] : Fin 0 → Fin S64x64x64x128.rank)
  bcast_S64_S1x1x1x64_3 : S64.BroadcastsInDim S1x1x1x64 (![3] : Fin 1 → Fin S1x1x1x64.rank)
  bcast_S1x1x1x64_S64x64x64x64_0_1_2_3 : S1x1x1x64.BroadcastsInDim S64x64x64x64 (![0, 1, 2, 3] : Fin 4 → Fin S64x64x64x64.rank)
  bcast_S_S64x64x64x64 : S_.BroadcastsInDim S64x64x64x64 (![] : Fin 0 → Fin S64x64x64x64.rank)
  bcast_S1_S1x1x1x1_3 : S1.BroadcastsInDim S1x1x1x1 (![3] : Fin 1 → Fin S1x1x1x1.rank)
  bcast_S1x1x1x1_S64x64x64x1_0_1_2_3 : S1x1x1x1.BroadcastsInDim S64x64x64x1 (![0, 1, 2, 3] : Fin 4 → Fin S64x64x64x1.rank)
  shapeCasts_S64x64x64x1_S64x64x64 : S64x64x64x1.ShapeCasts S64x64x64
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S_S64x64x64 : S_.BroadcastsInDim S64x64x64 (![] : Fin 0 → Fin S64x64x64.rank)
  bcast_S1x64x64_S64x64x64_0_1_2 : S1x64x64.BroadcastsInDim S64x64x64 (![0, 1, 2] : Fin 3 → Fin S64x64x64.rank)
  transposes_S64x64x64_S64x64x64_0_2_1 : S64x64x64.Transposes [0, 2, 1] S64x64x64
  bcast_S_S64x64 : S_.BroadcastsInDim S64x64 (![] : Fin 0 → Fin S64x64.rank)
  reducesTo_S64x64x64_S64x64_d2 : S64x64x64.ReducesTo [2] S64x64
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x64_0_1_2 : S64x64x1.BroadcastsInDim S64x64x64 (![0, 1, 2] : Fin 3 → Fin S64x64x64.rank)
  dot_S64x64x128_S128x128_S64x64x128_2_0_01_1_n_n_wf : DotDims.WF S64x64x128 S128x128 S64x64x128 [2] [0] [0, 1] [1] [] []
  dot_S64x64x64x128_S128x64_S64x64x64x64_3_0_012_1_n_n_wf : DotDims.WF S64x64x64x128 S128x64 S64x64x64x64 [3] [0] [0, 1, 2] [1] [] []
  dot_S64x64x64x64_S64x1_S64x64x64x1_3_0_012_1_n_n_wf : DotDims.WF S64x64x64x64 S64x1 S64x64x64x1 [3] [0] [0, 1, 2] [1] [] []

variable [Facts₀]

def dot_S64x64x128_S128x128_S64x64x128_2_0_01_1_n_n : DotDims S64x64x128 S128x128 S64x64x128 where
  lhsContracting := [2]
  rhsContracting := [0]
  lhsNonContracting := [0, 1]
  rhsNonContracting := [1]
  lhsBatch := []
  rhsBatch := []
  wf := dot_S64x64x128_S128x128_S64x64x128_2_0_01_1_n_n_wf
def dot_S64x64x64x128_S128x64_S64x64x64x64_3_0_012_1_n_n : DotDims S64x64x64x128 S128x64 S64x64x64x64 where
  lhsContracting := [3]
  rhsContracting := [0]
  lhsNonContracting := [0, 1, 2]
  rhsNonContracting := [1]
  lhsBatch := []
  rhsBatch := []
  wf := dot_S64x64x64x128_S128x64_S64x64x64x64_3_0_012_1_n_n_wf
def dot_S64x64x64x64_S64x1_S64x64x64x1_3_0_012_1_n_n : DotDims S64x64x64x64 S64x1 S64x64x64x1 where
  lhsContracting := [3]
  rhsContracting := [0]
  lhsNonContracting := [0, 1, 2]
  rhsNonContracting := [1]
  lhsBatch := []
  rhsBatch := []
  wf := dot_S64x64x64x64_S64x1_S64x64x64x1_3_0_012_1_n_n_wf

class Facts : Prop extends Facts₀ where

variable [Facts]
-- ==== Proof.EdgeSpec.lean ====
/-
  The function both programs compute, one batch element at a time, over the extended reals.

  For a batch element with features `tf n h t` (node, channel, time): the node vector is the time mean
  `node n h = (∑ t, tf n h t) / 128`; the two halves of the first weight matrix give per-node projections
  `projI n k = ∑ h, node n h · Wi h k` and `projJ n k = ∑ h, node n h · Wj h k` (`Wi`, `Wj` rows 0–127 and 128–255 of `W1`); an edge (i, j) has hidden
  vector `hid i j k = max (projI i k + projJ j k + b1 k) 0`, second hidden vector
  `hid2 i j q = max (∑ k, hid i j k · W2 k q + b2 q) 0` and score `feat i j = ∑ q, hid2 i j q · W3 q + b3`;
  the score is mixed with the learned adjacency, `mix i j = ½ · ap i j + ½ · feat i j`, symmetrized and clipped,
  `sym i j = max ((mix i j + mix j i) · ½) 0`, given a self loop, `loop i j = sym i j + [i = j]`, and each row is
  divided by its sum plus a small constant: `adj i j = loop i j / (∑ j', loop i j' + ε)`.

  The float constants 128, ½ and ε stay the bit patterns both programs spell; only ½ against the
  reference's division by 2, the unit 1 of the self loop and the zero of the clips and sums are evaluated.
-/
import Idealize.ShloMosaic.PureOps.Ideal
import Idealize.ShloMosaic.PureOps.Ideal.Laws
import Idealize.ShloMosaic.Lib.StableHlo.Predicate
import Idealize.ShloMosaic.Lib.ValueIdx

noncomputable section

namespace Cert.EdgeAdj

open Idealize.ShloMosaic

/-- The number of time steps, `128.0`, as the pattern both programs divide the time sum by. -/
abbrev cT : EReal := Ideal.ofBits .f32 0x43000000#32
/-- `0.5`, the weight of each term of the mix and the kernel's factor of the symmetrization. -/
abbrev cHalf : EReal := Ideal.ofBits .f32 0x3F000000#32
/-- The small constant added to a row's sum, `f32 (1e-8)`. -/
abbrev cEps : EReal := Ideal.ofBits .f32 0x322BCC77#32

/-- Row `h` of the first half of the 256-row weight matrix. -/
def lo (h : Fin 128) : Fin 256 := ⟨h.val, by have := h.isLt; omega⟩
/-- Row `h` of its second half. -/
def hi (h : Fin 128) : Fin 256 := ⟨128 + h.val, by have := h.isLt; omega⟩

section Spec
variable (tf : Fin 64 → Fin 128 → Fin 128 → EReal) (ap : Fin 64 → Fin 64 → EReal)
  (Wi Wj : Fin 128 → Fin 128 → EReal) (b1 : Fin 128 → EReal) (W2 : Fin 128 → Fin 64 → EReal)
  (b2 : Fin 64 → EReal) (W3 : Fin 64 → EReal) (b3 : EReal)

/-- The time mean of node `n`'s channel `h`. -/
def node (n : Fin 64) (h : Fin 128) : EReal := Ideal.div (∑ t : Fin 128, tf n h t) cT
/-- Node `n` through `Wi`, the first half of the 256-row weight matrix. -/
def projI (n : Fin 64) (k : Fin 128) : EReal := ∑ h : Fin 128, node tf n h * Wi h k
/-- Node `n` through `Wj`, its second half. -/
def projJ (n : Fin 64) (k : Fin 128) : EReal := ∑ h : Fin 128, node tf n h * Wj h k
/-- The first hidden vector of edge (i, j). -/
def hid (i j : Fin 64) (k : Fin 128) : EReal := max (projI tf Wi i k + projJ tf Wj j k + b1 k) 0
/-- Its second hidden vector. -/
def hid2 (i j : Fin 64) (q : Fin 64) : EReal := max (∑ k : Fin 128, hid tf Wi Wj b1 i j k * W2 k q + b2 q) 0
/-- The edge's score. -/
def feat (i j : Fin 64) : EReal := ∑ q : Fin 64, hid2 tf Wi Wj b1 W2 b2 i j q * W3 q + b3
/-- The score mixed with the learned adjacency. -/
def mix (i j : Fin 64) : EReal := cHalf * ap i j + cHalf * feat tf Wi Wj b1 W2 b2 W3 b3 i j
/-- Symmetrized and clipped at zero. -/
def sym (i j : Fin 64) : EReal := max ((mix tf ap Wi Wj b1 W2 b2 W3 b3 i j + mix tf ap Wi Wj b1 W2 b2 W3 b3 j i) * cHalf) 0
/-- The identity matrix's entry. -/
def eye (i j : Fin 64) : EReal := if i = j then 1 else 0
/-- With the self loop. -/
def loop (i j : Fin 64) : EReal := sym tf ap Wi Wj b1 W2 b2 W3 b3 i j + eye i j
/-- Row-normalized: the result's entry (i, j) for this batch element. -/
def adj (i j : Fin 64) : EReal :=
  Ideal.div (loop tf ap Wi Wj b1 W2 b2 W3 b3 i j) (∑ j' : Fin 64, loop tf ap Wi Wj b1 W2 b2 W3 b3 i j' + cEps)

end Spec

/-! ## The three evaluated constants -/

/-- The pattern of `0.5` denotes the real ½. -/
theorem half_val : cHalf = (((1 / 2 : ℝ)) : EReal) := by
  simp [Ideal.ofBits, Ideal.ieee, -EReal.coe_mul]; norm_num

/-- The pattern of `2.0` denotes the real 2. -/
theorem two_val : Ideal.ofBits .f32 0x40000000#32 = ((2 : ℝ) : EReal) := by
  simp [Ideal.ofBits, Ideal.ieee, -EReal.coe_mul]; norm_num

/-- The pattern of `1.0` denotes 1. -/
theorem one_val : Ideal.ofBits .f32 0x3F800000#32 = 1 := by
  simp [Ideal.ofBits, Ideal.ieee, -EReal.coe_mul]; norm_num

/-- Dividing by two is multiplying by a half, on every extended real. -/
theorem div_two (x : EReal) : Ideal.div x (Ideal.ofBits .f32 0x40000000#32) = x * cHalf := by
  rw [two_val, half_val]; exact Ideal.div_coe (by norm_num) x

/-! ## The identity matrix, as each program spells it -/

/-- Two coordinates below 64 have equal 32-bit words exactly when they are equal. -/
theorem word_eq_iff (i j : Fin 64) : BitVec.ofNat 32 i.val = BitVec.ofNat 32 j.val ↔ i = j := by
  constructor
  · intro h
    have h' := congrArg BitVec.toNat h
    simp only [BitVec.toNat_ofNat] at h'
    have hi := i.isLt; have hj := j.isLt
    rw [Nat.mod_eq_of_lt (by omega), Nat.mod_eq_of_lt (by omega)] at h'
    exact Fin.ext h'
  · rintro rfl; rfl

/-- The kernel's `where (row == col) 1.0 0.0` at (i, j). -/
theorem eye_select (i j : Fin 64) :
    Scalar.select (IntOp.cmpi .eq (BitVec.ofNat 32 i.val) (BitVec.ofNat 32 j.val))
      (Ideal.ofBits .f32 0x3F800000#32) (Ideal.ofBits .f32 0x00000000#32) = eye i j := by
  unfold eye Scalar.select
  have key : (IntOp.cmpi .eq (BitVec.ofNat 32 i.val) (BitVec.ofNat 32 j.val) = 1) ↔ i = j :=
    StableHlo.Predicate.cmpi_eq_iff.trans (word_eq_iff i j)
  by_cases h : i = j
  · rw [if_pos h, if_pos (key.2 h), one_val]
  · rw [if_neg h, if_neg (fun hc => h (key.1 hc)), Ideal.ofBits_zero_f32]

/-- The reference's `eye`, the comparison `row + 0 == col` converted to a float, at (i, j). -/
theorem eye_convert (i j : Fin 64) :
    FloatOps.uitofp (F := Ideal) .f32 (IntOp.cmpi .eq (IntOp.addi (BitVec.ofNat 32 i.val) 0#32) (BitVec.ofNat 32 j.val)) = eye i j := by
  have h0 : IntOp.addi (BitVec.ofNat 32 i.val) 0#32 = BitVec.ofNat 32 i.val := by
    simp [IntOp.addi]
  rw [h0]
  unfold eye
  by_cases h : i = j
  · rw [if_pos h, StableHlo.Predicate.cmpi_eq_iff.2 ((word_eq_iff i j).2 h)]
    show (((1#1 : BitVec 1).toNat : ℝ) : EReal) = 1
    simp
  · have hc : IntOp.cmpi .eq (BitVec.ofNat 32 i.val) (BitVec.ofNat 32 j.val) = 0#1 :=
      ValueIdx.eq_zero_of_ne_one (fun hc => h ((word_eq_iff i j).1 (StableHlo.Predicate.cmpi_eq_iff.1 hc)))
    rw [if_neg h, hc]
    show (((0#1 : BitVec 1).toNat : ℝ) : EReal) = 0
    simp

end Cert.EdgeAdj

end
-- ==== Proof.EdgeLayout.lean ====
/-
  The re-layings and the two row sums of the edge network's body, each read at an index written by
  coordinates: a hidden vector gains a unit axis before it is broadcast over the other node of an edge,
  the 64 × 64 edges are flattened to 4096 rows (edge (i, j) is row 64·i + j) for the two matrix products and
  unflattened after them, and a row's sum is kept as a column.
-/
import Idealize.ShloMosaic.PureOps.Ideal.Laws
import Idealize.ShloMosaic.Lib.Pipeline.Value
import Idealize.ShloMosaic.Lib.ValueIdx
import Idealize.ShloMosaic.Lib.ValueLayout

noncomputable section

namespace Cert.EdgeAdj

open Idealize.ShloMosaic Idealize.ShloMosaic.ValueIdx

variable {α : Type}

/-- The row of edge (i, j) among the 4096 flattened edges. -/
def edgeRow (i j : Fin 64) : Fin 4096 := ⟨i.val * 64 + j.val, by have := i.isLt; have := j.isLt; omega⟩

/-! ## Shape casts -/

/-- `[a, c]` viewed `[a, 1, c]`. -/
theorem cast_ac_a1c {a c : ℕ} (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- `[c]` viewed `[1, 1, c]`. -/
theorem cast_c_11c {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- The edges flattened: `[64, 64, c]` viewed `[4096, c]`, row `64·i + j` is edge (i, j). -/
theorem cast_edges_flat {c : ℕ} (x : (⟨3, ![64, 64, c]⟩ : Shape).Idx → α) (h : (⟨3, ![64, 64, c]⟩ : Shape).ShapeCasts ⟨2, ![4096, c]⟩)
    (i j : Fin 64) (k : Fin c) : shapeCast ⟨2, ![4096, c]⟩ x h (ix2 (edgeRow i j) k) = x (ix3 i j k) :=
  shapeCast_apply x h _ _ (by
    rw [Shape.rowMajor_val_three, Shape.rowMajor_val_two]
    rfl)

/-- The edges unflattened: `[4096, 1]` viewed `[64, 64, 1]`. -/
theorem cast_flat_edges (x : (⟨2, ![4096, 1]⟩ : Shape).Idx → α) (h : (⟨2, ![4096, 1]⟩ : Shape).ShapeCasts ⟨3, ![64, 64, 1]⟩)
    (i j : Fin 64) (u : Fin 1) : shapeCast ⟨3, ![64, 64, 1]⟩ x h (ix3 i j u) = x (ix2 (edgeRow i j) (0 : Fin 1)) :=
  shapeCast_apply x h _ _ (by
    have hu : u.val = 0 := by omega
    rw [Shape.rowMajor_val_three, Shape.rowMajor_val_two]
    show (i.val * 64 + j.val) * 1 + 0 = (i.val * 64 + j.val) * 1 + u.val
    rw [hu])

/-- A trailing unit axis dropped: `[a, b, 1]` viewed `[a, b]`. -/
theorem cast_ab1_ab {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A vector kept as a column: `[a]` viewed `[a, 1]`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts -/

/-- Over the second node of an edge: `[64, 1, 128]` to `[64, 64, 128]`. -/
theorem bcast_over_j (x : (⟨3, ![64, 1, 128]⟩ : Shape).Idx → α) (h : (⟨3, ![64, 1, 128]⟩ : Shape).Broadcasts ⟨3, ![64, 64, 128]⟩)
    (i j : Fin 64) (k : Fin 128) : broadcastTo ⟨3, ![64, 64, 128]⟩ x h (ix3 i j k) = x (ix3 i (0 : Fin 1) k) :=
  broadcastTo_apply x h _ _ fun ax => by
    match ax with
    | ⟨0, _⟩ => rfl
    | ⟨1, _⟩ => rfl
    | ⟨2, _⟩ => rfl

/-- Over the first node of an edge: `[1, 64, 128]` to `[64, 64, 128]`. -/
theorem bcast_over_i (x : (⟨3, ![1, 64, 128]⟩ : Shape).Idx → α) (h : (⟨3, ![1, 64, 128]⟩ : Shape).Broadcasts ⟨3, ![64, 64, 128]⟩)
    (i j : Fin 64) (k : Fin 128) : broadcastTo ⟨3, ![64, 64, 128]⟩ x h (ix3 i j k) = x (ix3 (0 : Fin 1) j k) :=
  broadcastTo_apply x h _ _ fun ax => by
    match ax with
    | ⟨0, _⟩ => rfl
    | ⟨1, _⟩ => rfl
    | ⟨2, _⟩ => rfl

/-- Over both nodes: `[1, 1, 128]` to `[64, 64, 128]`. -/
theorem bcast_over_ij (x : (⟨3, ![1, 1, 128]⟩ : Shape).Idx → α) (h : (⟨3, ![1, 1, 128]⟩ : Shape).Broadcasts ⟨3, ![64, 64, 128]⟩)
    (i j : Fin 64) (k : Fin 128) : broadcastTo ⟨3, ![64, 64, 128]⟩ x h (ix3 i j k) = x (ix3 (0 : Fin 1) (0 : Fin 1) k) :=
  broadcastTo_apply x h _ _ fun ax => by
    match ax with
    | ⟨0, _⟩ => rfl
    | ⟨1, _⟩ => rfl
    | ⟨2, _⟩ => rfl

/-- A column over its row: `[64, 1]` to `[64, 64]`. -/
theorem bcast_col (x : (⟨2, ![64, 1]⟩ : Shape).Idx → α) (h : (⟨2, ![64, 1]⟩ : Shape).Broadcasts ⟨2, ![64, 64]⟩)
    (i j : Fin 64) : broadcastTo ⟨2, ![64, 64]⟩ x h (ix2 i j) = x (ix2 i (0 : Fin 1)) :=
  broadcastTo_apply x h _ _ fun ax => by
    match ax with
    | ⟨0, _⟩ => rfl
    | ⟨1, _⟩ => rfl

/-! ## The two sums -/

/-- The sum over time of a `[64, 128, 128]` block, at (n, c). -/
theorem sum_time (src : FVec Ideal ⟨3, ![64, 128, 128]⟩ .f32) (acc : BitVec 32)
    (h : (⟨3, ![64, 128, 128]⟩ : Shape).Reduces [2] ⟨2, ![64, 128]⟩) (hφ : FKind.Formats .f32) (hacc : acc = FKind.add.neutral .f32 hφ)
    (n : Fin 64) (c : Fin 128) :
    multiReduction .add [2] ⟨2, ![64, 128]⟩ src acc h hφ hacc (ix2 n c) = ∑ t : Fin 128, src (ix3 n c t) :=
  (Ideal.multiReduction_add_single src acc h hφ hacc (ix2 n c)).trans
    (Finset.sum_congr rfl fun t _ => congrArg src (funext fun a => Fin.ext (by
      match a with
      | ⟨0, _⟩ => rfl
      | ⟨1, _⟩ => rfl
      | ⟨2, _⟩ => rfl)))

/-- The sum of row `i` of a `[64, 64]` matrix. -/
theorem sum_row (src : FVec Ideal ⟨2, ![64, 64]⟩ .f32) (acc : BitVec 32)
    (h : (⟨2, ![64, 64]⟩ : Shape).Reduces [1] ⟨1, ![64]⟩) (hφ : FKind.Formats .f32) (hacc : acc = FKind.add.neutral .f32 hφ)
    (i : Fin 64) :
    multiReduction .add [1] ⟨1, ![64]⟩ src acc h hφ hacc (ix1 i) = ∑ j : Fin 64, src (ix2 i j) :=
  (Ideal.multiReduction_add_single src acc h hφ hacc (ix1 i)).trans
    (Finset.sum_congr rfl fun j _ => congrArg src (funext fun a => Fin.ext (by
      match a with
      | ⟨0, _⟩ => rfl
      | ⟨1, _⟩ => rfl)))

end Cert.EdgeAdj

end
-- ==== Proof.KernelProducts.lean ====
/-
  The body's three matrix products read at an index: each is a plain rows × contraction times
  contraction × columns product into a zero accumulator, so its entry (r, c) is the sum over the
  contraction coordinate k of left (r, k) · right (k, c) on the extended reals.
-/
import proofs.«173251_j16260746183317_1_alg».proof.Proof.Gen.KernelIdeal
import Idealize.ShloMosaic.PureOps.Ideal.Laws
import Idealize.ShloMosaic.Lib.ValueIdx

noncomputable section

namespace Cert.EdgeAdj.Kernel

open Idealize.ShloMosaic Idealize.ShloMosaic.ValueIdx Cert.KernelIdeal Cert.KernelIdeal.Gen

/-! ## Nodes through a half of the first weight matrix: [64, 128] · [128, 128] -/

theorem lhsP_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhsP_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhsP_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhsP_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- Entry (n, k) of nodes times a weight half: the sum over the channel h. -/
theorem prodP_apply (a : FVec Ideal S64x128 .bf16) (w : FVec Ideal S128x128 .bf16) (n : Fin 64) (k : Fin 128) :
    matmul dot_S64x128_S128x128_S64x128_1_0_0_1_n_n none a w (constant S64x128 .f32 0x00000000#32) (ix2 n k)
      = ∑ h : Fin 128, a (ix2 n h) * w (ix2 h k) := by
  simp only [matmul]
  rw [Ideal.matmul_constant_zero_apply, ← Equiv.sum_comp (contrEquiv1 dot_S64x128_S128x128_S64x128_1_0_0_1_n_n 128 rfl rfl).symm]
  refine Finset.sum_congr rfl fun h _ => ?_
  have hk := contrEquiv1_symm_val dot_S64x128_S128x128_S64x128_1_0_0_1_n_n 128 rfl rfl h
  have el : dot_S64x128_S128x128_S64x128_1_0_0_1_n_n.lhsIdx (ix2 n k) ((contrEquiv1 dot_S64x128_S128x128_S64x128_1_0_0_1_n_n 128 rfl rfl).symm h) = ix2 n h := funext fun ax => Fin.ext (by
    match ax with
    | ⟨0, _⟩ => exact lhsP_0 _ _
    | ⟨1, _⟩ => exact (lhsP_1 _ _).trans hk)
  have er : dot_S64x128_S128x128_S64x128_1_0_0_1_n_n.rhsIdx (ix2 n k) ((contrEquiv1 dot_S64x128_S128x128_S64x128_1_0_0_1_n_n 128 rfl rfl).symm h) = ix2 h k := funext fun ax => Fin.ext (by
    match ax with
    | ⟨0, _⟩ => exact (rhsP_0 _ _).trans hk
    | ⟨1, _⟩ => exact rhsP_1 _ _)
  rw [el, er]

/-! ## Edges' hidden vectors through the second weight matrix: [4096, 128] · [128, 64] -/

theorem lhsH_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsH_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhsH_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhsH_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- Entry (r, q) of the flattened hidden vectors times the second weight matrix: the sum over k. -/
theorem prodH_apply (a : FVec Ideal S4096x128 .bf16) (w : FVec Ideal S128x64 .bf16) (r : Fin 4096) (q : Fin 64) :
    matmul dot_S4096x128_S128x64_S4096x64_1_0_0_1_n_n none a w (constant S4096x64 .f32 0x00000000#32) (ix2 r q)
      = ∑ k : Fin 128, a (ix2 r k) * w (ix2 k q) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 r q) ((contrEquiv1 dot_S4096x128_S128x64_S4096x64_1_0_0_1_n_n 128 rfl rfl).symm k) = ix2 r k := funext fun ax => Fin.ext (by
    match ax with
    | ⟨0, _⟩ => exact lhsH_0 _ _
    | ⟨1, _⟩ => exact (lhsH_1 _ _).trans hk)
  have er : dot_S4096x128_S128x64_S4096x64_1_0_0_1_n_n.rhsIdx (ix2 r q) ((contrEquiv1 dot_S4096x128_S128x64_S4096x64_1_0_0_1_n_n 128 rfl rfl).symm k) = ix2 k q := funext fun ax => Fin.ext (by
    match ax with
    | ⟨0, _⟩ => exact (rhsH_0 _ _).trans hk
    | ⟨1, _⟩ => exact rhsH_1 _ _)
  rw [el, er]

/-! ## Edges' second hidden vectors through the score column: [4096, 64] · [64, 1] -/

theorem lhsS_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhsS_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem rhsS_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem rhsS_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- Entry (r, 0) of the flattened second hidden vectors times the score column: the sum over q. -/
theorem prodS_apply (a : FVec Ideal S4096x64 .bf16) (w : FVec Ideal S64x1 .bf16) (r : Fin 4096) (u : Fin 1) :
    matmul dot_S4096x64_S64x1_S4096x1_1_0_0_1_n_n none a w (constant S4096x1 .f32 0x00000000#32) (ix2 r u)
      = ∑ q : Fin 64, a (ix2 r q) * w (ix2 q u) := by
  simp only [matmul]
  rw [Ideal.matmul_constant_zero_apply, ← Equiv.sum_comp (contrEquiv1 dot_S4096x64_S64x1_S4096x1_1_0_0_1_n_n 64 rfl rfl).symm]
  refine Finset.sum_congr rfl fun q _ => ?_
  have hk := contrEquiv1_symm_val dot_S4096x64_S64x1_S4096x1_1_0_0_1_n_n 64 rfl rfl q
  have el : dot_S4096x64_S64x1_S4096x1_1_0_0_1_n_n.lhsIdx (ix2 r u) ((contrEquiv1 dot_S4096x64_S64x1_S4096x1_1_0_0_1_n_n 64 rfl rfl).symm q) = ix2 r q := funext fun ax => Fin.ext (by
    match ax with
    | ⟨0, _⟩ => exact lhsS_0 _ _
    | ⟨1, _⟩ => exact (lhsS_1 _ _).trans hk)
  have er : dot_S4096x64_S64x1_S4096x1_1_0_0_1_n_n.rhsIdx (ix2 r u) ((contrEquiv1 dot_S4096x64_S64x1_S4096x1_1_0_0_1_n_n 64 rfl rfl).symm q) = ix2 q u := funext fun ax => Fin.ext (by
    match ax with
    | ⟨0, _⟩ => exact (rhsS_0 _ _).trans hk
    | ⟨1, _⟩ => exact rhsS_1 _ _)
  rw [el, er]

end Cert.EdgeAdj.Kernel

end
-- ==== Proof.KernelStages.lean ====
/-
  The kernel body's arithmetic, cut into the stages the specification names, each read at an index.
  The body computes, from the loaded blocks, exactly the specification's chain: the time mean, the two
  projections, the first hidden vector over all edges, the flattened second hidden vector, the score,
  the mix with the learned adjacency, the symmetrization, the self loop and the row normalization.
  Changes of float format are the identity on the extended reals.
-/
import proofs.«173251_j16260746183317_1_alg».proof.Proof.Gen.KernelIdeal.Skeleton
import proofs.«173251_j16260746183317_1_alg».proof.Proof.EdgeSpec
import proofs.«173251_j16260746183317_1_alg».proof.Proof.EdgeLayout
import proofs.«173251_j16260746183317_1_alg».proof.Proof.KernelProducts
import Idealize.ShloMosaic.Lib.ValueLayout

noncomputable section

namespace Cert.EdgeAdj.Kernel

open Idealize.ShloMosaic Idealize.ShloMosaic.ValueIdx Cert.KernelIdeal Cert.KernelIdeal.Gen Cert.EdgeAdj

/-! ## The stages -/

/-- The time mean of a batch element's block. -/
def sNode (v0 : Vec Ideal S1x64x128x128 .f32) : FVec Ideal S64x128 .f32 :=
  divf (multiReduction .add [2] S64x128 (shapeCast S64x128x128 v0 shapeCasts_S1x64x128x128_S64x128x128) 0x00000000#32 reduces_S64x128x128_S64x128 (.inl rfl) rfl)
    (broadcast S64x128 (Scalar.ofBits .f32 0x43000000#32))

/-- The nodes through one half of the first weight matrix. -/
def sProj (nd : FVec Ideal S64x128 .f32) (w : Vec Ideal S128x128 .f32) : FVec Ideal S64x128 .f32 :=
  matmul dot_S64x128_S128x128_S64x128_1_0_0_1_n_n none (truncf .bf16 nd bitsLt_bf16_f32) (truncf .bf16 w bitsLt_bf16_f32) (constant S64x128 .f32 0x00000000#32)

/-- The first hidden vector of every edge. -/
def sHid (pi pj : FVec Ideal S64x128 .f32) (b1 : Vec Ideal S128 .f32) : FVec Ideal S64x64x128 .f32 :=
  maximumf
    (addf
      (addf (broadcastTo S64x64x128 (shapeCast S64x1x128 pi shapeCasts_S64x128_S64x1x128) broadcasts_S64x1x128_S64x64x128)
        (broadcastTo S64x64x128 (shapeCast S1x64x128 pj shapeCasts_S64x128_S1x64x128) broadcasts_S1x64x128_S64x64x128))
      (broadcastTo S64x64x128 (shapeCast S1x1x128 b1 shapeCasts_S128_S1x1x128) broadcasts_S1x1x128_S64x64x128))
    (broadcast S64x64x128 (Scalar.ofBits .f32 0x00000000#32))

/-- The second hidden vector of every edge, edges flattened. -/
def sHid2 (hd : FVec Ideal S64x64x128 .f32) (w2 : Vec Ideal S128x64 .f32) (b2 : Vec Ideal S64 .f32) : FVec Ideal S4096x64 .f32 :=
  maximumf
    (addf
      (matmul dot_S4096x128_S128x64_S4096x64_1_0_0_1_n_n none (truncf .bf16 (shapeCast S4096x128 hd shapeCasts_S64x64x128_S4096x128) bitsLt_bf16_f32)
        (truncf .bf16 w2 bitsLt_bf16_f32) (constant S4096x64 .f32 0x00000000#32))
      (broadcastTo S4096x64 (shapeCast S1x64 b2 shapeCasts_S64_S1x64) broadcasts_S1x64_S4096x64))
    (broadcast S4096x64 (Scalar.ofBits .f32 0x00000000#32))

/-- The score of every edge, edges unflattened. -/
def sFeat (h2 : FVec Ideal S4096x64 .bf16) (w3 : FVec Ideal S64x1 .bf16) (b3 : Vec Ideal S1 .f32) : FVec Ideal S64x64 .f32 :=
  shapeCast S64x64
    (shapeCast S64x64x1
      (addf (matmul dot_S4096x64_S64x1_S4096x1_1_0_0_1_n_n none h2 w3 (constant S4096x1 .f32 0x00000000#32))
        (broadcastTo S4096x1 (shapeCast S1x1 b3 shapeCasts_S1_S1x1) broadcasts_S1x1_S4096x1))
      shapeCasts_S4096x1_S64x64x1)
    shapeCasts_S64x64x1_S64x64

/-- The score mixed with the learned adjacency. -/
def sMix (ft : FVec Ideal S64x64 .f32) (ap : Vec Ideal S64x64 .f32) : FVec Ideal S64x64 .f32 :=
  addf (mulf (broadcast S64x64 (Scalar.ofBits .f32 0x3F000000#32)) ap) (mulf (broadcast S64x64 (Scalar.ofBits .f32 0x3F000000#32)) ft)

/-- Symmetrized and clipped. -/
def sSym (mx : FVec Ideal S64x64 .f32) : FVec Ideal S64x64 .f32 :=
  maximumf (mulf (addf mx (transpose S64x64 [1, 0] mx transposes_S64x64_p1_0_S64x64)) (broadcast S64x64 (Scalar.ofBits .f32 0x3F000000#32)))
    (broadcast S64x64 (Scalar.ofBits .f32 0x00000000#32))

/-- With the self loop. -/
def sLoop (sy : FVec Ideal S64x64 .f32) : FVec Ideal S64x64 .f32 :=
  addf sy
    (select (cmpi .eq (iota .tc S64x64 32 [0] iota_S64x64_d0_w32) (iota .tc S64x64 32 [1] iota_S64x64_d1_w32))
      (broadcast S64x64 (Scalar.ofBits .f32 0x3F800000#32)) (broadcast S64x64 (Scalar.ofBits .f32 0x00000000#32)))

/-- Row-normalized, as the stored block. -/
def sAdj (lp : FVec Ideal S64x64 .f32) : FVec Ideal S1x64x64 .f32 :=
  shapeCast S1x64x64
    (divf lp
      (broadcastTo S64x64
        (addf (shapeCast S64x1 (multiReduction .add [1] S64 lp 0x00000000#32 reduces_S64x64_S64 (.inl rfl) rfl) shapeCasts_S64_S64x1)
          (broadcast S64x1 (Scalar.ofBits .f32 0x322BCC77#32)))
        broadcasts_S64x1_S64x64))
    shapeCasts_S64x64_S1x64x64

/-! ## The payloads are the stages composed -/

theorem pay2_eq (v0 : Vec Ideal S1x64x128x128 .f32) (v6 v8 : Vec Ideal S128x128 .f32) (v12 : Vec Ideal S128 .f32)
    (v25 : Vec Ideal S128x64 .f32) (v27 : Vec Ideal S64 .f32) :
    k0_pay2 (F := Ideal) v0 v6 v8 v12 v25 v27
      = truncf .bf16 (sHid2 (sHid (sProj (sNode v0) v6) (sProj (sNode v0) v8) v12) v25 v27) bitsLt_bf16_f32 := rfl

theorem pay1_eq (v34 : FVec Ideal S4096x64 .bf16) (v36 : FVec Ideal S64x1 .bf16) (v37 : Vec Ideal S1 .f32) (v44 : Vec Ideal S64x64 .f32) :
    k0_pay1 (F := Ideal) v34 v36 v37 v44 = sAdj (sLoop (sSym (sMix (sFeat v34 v36 v37) v44))) := rfl

theorem pay3_eq (v35 : Vec Ideal S64x1 .f32) : k0_pay3 (F := Ideal) v35 = truncf .bf16 v35 bitsLt_bf16_f32 := rfl

/-! ## Each stage at an index -/

theorem sNode_apply (v0 : Vec Ideal S1x64x128x128 .f32) (n : Fin 64) (c : Fin 128) :
    sNode v0 (ix2 n c) = node (fun n c t => v0 (ix4 (0 : Fin 1) n c t)) n c := by
  unfold sNode node
  exact congrArg (fun z => Ideal.div z cT)
    ((sum_time (shapeCast S64x128x128 v0 shapeCasts_S1x64x128x128_S64x128x128) 0x00000000#32 reduces_S64x128x128_S64x128 (.inl rfl) rfl n c).trans
      (Finset.sum_congr rfl fun t _ => shapeCast_1abc_abc_apply v0 _ n c t))

theorem sProj_apply (nd : FVec Ideal S64x128 .f32) (w : Vec Ideal S128x128 .f32) (n : Fin 64) (k : Fin 128) :
    sProj nd w (ix2 n k) = ∑ h : Fin 128, nd (ix2 n h) * w (ix2 h k) := by
  unfold sProj
  exact prodP_apply _ _ n k

theorem sHid_apply (pi pj : FVec Ideal S64x128 .f32) (b1 : Vec Ideal S128 .f32) (i j : Fin 64) (k : Fin 128) :
    sHid pi pj b1 (ix3 i j k) = max (pi (ix2 i k) + pj (ix2 j k) + b1 (ix1 k)) 0 := by
  unfold sHid
  show max (broadcastTo S64x64x128 (shapeCast S64x1x128 pi shapeCasts_S64x128_S64x1x128) broadcasts_S64x1x128_S64x64x128 (ix3 i j k)
      + broadcastTo S64x64x128 (shapeCast S1x64x128 pj shapeCasts_S64x128_S1x64x128) broadcasts_S1x64x128_S64x64x128 (ix3 i j k)
      + broadcastTo S64x64x128 (shapeCast S1x1x128 b1 shapeCasts_S128_S1x1x128) broadcasts_S1x1x128_S64x64x128 (ix3 i j k))
    (Ideal.ofBits .f32 0x00000000#32) = _
  rw [bcast_over_j, bcast_over_i, bcast_over_ij, cast_ac_a1c, shapeCast_ab_1ab_apply, cast_c_11c, Ideal.ofBits_zero_f32]

theorem sHid2_apply (hd : FVec Ideal S64x64x128 .f32) (w2 : Vec Ideal S128x64 .f32) (b2 : Vec Ideal S64 .f32) (i j q : Fin 64) :
    sHid2 hd w2 b2 (ix2 (edgeRow i j) q) = max (∑ k : Fin 128, hd (ix3 i j k) * w2 (ix2 k q) + b2 (ix1 q)) 0 := by
  unfold sHid2
  show max (matmul dot_S4096x128_S128x64_S4096x64_1_0_0_1_n_n none (truncf .bf16 (shapeCast S4096x128 hd shapeCasts_S64x64x128_S4096x128) bitsLt_bf16_f32)
        (truncf .bf16 w2 bitsLt_bf16_f32) (constant S4096x64 .f32 0x00000000#32) (ix2 (edgeRow i j) q)
      + broadcastTo S4096x64 (shapeCast S1x64 b2 shapeCasts_S64_S1x64) broadcasts_S1x64_S4096x64 (ix2 (edgeRow i j) q))
    (Ideal.ofBits .f32 0x00000000#32) = _
  rw [prodH_apply, broadcastTo_1b_ab_apply, shapeCast_a_1a_apply, Ideal.ofBits_zero_f32]
  refine congrArg (max · 0) (congrArg (· + _) (Finset.sum_congr rfl fun k _ => ?_))
  show shapeCast S4096x128 hd shapeCasts_S64x64x128_S4096x128 (ix2 (edgeRow i j) k) * w2 (ix2 k q) = _
  rw [cast_edges_flat]

theorem sFeat_apply (h2 : FVec Ideal S4096x64 .bf16) (w3 : FVec Ideal S64x1 .bf16) (b3 : Vec Ideal S1 .f32) (i j : Fin 64) :
    sFeat h2 w3 b3 (ix2 i j) = ∑ q : Fin 64, h2 (ix2 (edgeRow i j) q) * w3 (ix2 q (0 : Fin 1)) + b3 (ix1 (0 : Fin 1)) := by
  unfold sFeat
  rw [cast_ab1_ab, cast_flat_edges]
  show matmul dot_S4096x64_S64x1_S4096x1_1_0_0_1_n_n none h2 w3 (constant S4096x1 .f32 0x00000000#32) (ix2 (edgeRow i j) (0 : Fin 1))
      + broadcastTo S4096x1 (shapeCast S1x1 b3 shapeCasts_S1_S1x1) broadcasts_S1x1_S4096x1 (ix2 (edgeRow i j) (0 : Fin 1)) = _
  rw [prodS_apply, broadcastTo_1b_ab_apply, shapeCast_a_1a_apply]

theorem sMix_apply (ft : FVec Ideal S64x64 .f32) (ap : Vec Ideal S64x64 .f32) (i j : Fin 64) :
    sMix ft ap (ix2 i j) = cHalf * ap (ix2 i j) + cHalf * ft (ix2 i j) := rfl

theorem sSym_apply (mx : FVec Ideal S64x64 .f32) (i j : Fin 64) :
    sSym mx (ix2 i j) = max ((mx (ix2 i j) + mx (ix2 j i)) * cHalf) 0 := by
  unfold sSym
  show max ((mx (ix2 i j) + transpose S64x64 [1, 0] mx transposes_S64x64_p1_0_S64x64 (ix2 i j)) * cHalf) (Ideal.ofBits .f32 0x00000000#32) = _
  rw [transpose_ix2_apply, Ideal.ofBits_zero_f32]

theorem sLoop_apply (sy : FVec Ideal S64x64 .f32) (i j : Fin 64) :
    sLoop sy (ix2 i j) = sy (ix2 i j) + eye i j := by
  unfold sLoop
  show sy (ix2 i j) + Scalar.select (IntOp.cmpi .eq (iota .tc S64x64 32 [0] iota_S64x64_d0_w32 (ix2 i j)) (iota .tc S64x64 32 [1] iota_S64x64_d1_w32 (ix2 i j)))
      (Ideal.ofBits .f32 0x3F800000#32) (Ideal.ofBits .f32 0x00000000#32) = _
  rw [iota_single_apply, iota_single_apply]
  exact congrArg (sy (ix2 i j) + ·) (eye_select i j)

theorem sAdj_apply (lp : FVec Ideal S64x64 .f32) (u : Fin 1) (i j : Fin 64) :
    sAdj lp (ix3 u i j) = Ideal.div (lp (ix2 i j)) (∑ j' : Fin 64, lp (ix2 i j') + cEps) := by
  unfold sAdj
  rw [shapeCast_ab_1ab_apply]
  show Ideal.div (lp (ix2 i j)) (broadcastTo S64x64
        (addf (shapeCast S64x1 (multiReduction .add [1] S64 lp 0x00000000#32 reduces_S64x64_S64 (.inl rfl) rfl) shapeCasts_S64_S64x1)
          (broadcast S64x1 (Scalar.ofBits .f32 0x322BCC77#32)))
        broadcasts_S64x1_S64x64 (ix2 i j)) = _
  rw [bcast_col]
  show Ideal.div (lp (ix2 i j)) (shapeCast S64x1 (multiReduction .add [1] S64 lp 0x00000000#32 reduces_S64x64_S64 (.inl rfl) rfl) shapeCasts_S64_S64x1 (ix2 i (0 : Fin 1)) + cEps) = _
  rw [cast_a_a1]
  exact congrArg (fun z => Ideal.div (lp (ix2 i j)) (z + cEps)) (sum_row lp 0x00000000#32 reduces_S64x64_S64 (.inl rfl) rfl i)

/-! ## The whole body at an index -/

/-- Entry (i, j) of the block the body stores, from the blocks it loads: the specification's `adj` of their entries. -/
theorem payload_apply (v0 : Vec Ideal S1x64x128x128 .f32) (v6 v8 : Vec Ideal S128x128 .f32) (v12 : Vec Ideal S128 .f32)
    (v25 : Vec Ideal S128x64 .f32) (v27 : Vec Ideal S64 .f32) (v35 : Vec Ideal S64x1 .f32) (v37 : Vec Ideal S1 .f32) (v44 : Vec Ideal S64x64 .f32)
    (u : Fin 1) (i j : Fin 64) :
    k0_pay1 (F := Ideal) (k0_pay2 v0 v6 v8 v12 v25 v27) (k0_pay3 v35) v37 v44 (ix3 u i j)
      = adj (fun n c t => v0 (ix4 (0 : Fin 1) n c t)) (fun p q => v44 (ix2 p q)) (fun h k => v6 (ix2 h k)) (fun h k => v8 (ix2 h k))
          (fun k => v12 (ix1 k)) (fun k q => v25 (ix2 k q)) (fun q => v27 (ix1 q)) (fun q => v35 (ix2 q (0 : Fin 1))) (v37 (ix1 (0 : Fin 1))) i j := by
  rw [pay1_eq, pay2_eq, pay3_eq]
  simp only [sAdj_apply, sLoop_apply, sSym_apply, sMix_apply, sFeat_apply, truncf_apply, sHid2_apply, sHid_apply, sProj_apply, sNode_apply,
    adj, loop, sym, mix, feat, hid2, hid, projI, projJ]

end Cert.EdgeAdj.Kernel

end
-- ==== Proof.EdgeResult.lean ====
/-
  The result array as ONE function of the eight argument arrays: entry (b, i, j) is the specification's
  row-normalized adjacency `adj` of batch element `b`'s features and the shared weights, at (i, j).
  The first weight matrix is read in its two halves, rows 0–127 and rows 128–255.
-/
import proofs.«173251_j16260746183317_1_alg».proof.Proof.EdgeSpec
import Idealize.ShloMosaic.Lib.ValueIdx

noncomputable section

namespace Cert.EdgeAdj

open Idealize.ShloMosaic Idealize.ShloMosaic.ValueIdx

/-- The specification depends on its arguments only through their entries. -/
theorem adj_congr {tf tf' : Fin 64 → Fin 128 → Fin 128 → EReal} {ap ap' : Fin 64 → Fin 64 → EReal}
    {Wi Wi' Wj Wj' : Fin 128 → Fin 128 → EReal} {b1 b1' : Fin 128 → EReal} {W2 W2' : Fin 128 → Fin 64 → EReal}
    {b2 b2' : Fin 64 → EReal} {W3 W3' : Fin 64 → EReal} {b3 b3' : EReal} {i i' j j' : Fin 64}
    (h0 : ∀ n c t, tf n c t = tf' n c t) (h1 : ∀ p q, ap p q = ap' p q) (h2 : ∀ h k, Wi h k = Wi' h k)
    (h3 : ∀ h k, Wj h k = Wj' h k) (h4 : ∀ k, b1 k = b1' k) (h5 : ∀ k q, W2 k q = W2' k q) (h6 : ∀ q, b2 q = b2' q)
    (h7 : ∀ q, W3 q = W3' q) (h8 : b3 = b3') (hi : i = i') (hj : j = j') :
    adj tf ap Wi Wj b1 W2 b2 W3 b3 i j = adj tf' ap' Wi' Wj' b1' W2' b2' W3' b3' i' j' := by
  obtain rfl : tf = tf' := funext fun n => funext fun c => funext fun t => h0 n c t
  obtain rfl : ap = ap' := funext fun p => funext fun q => h1 p q
  obtain rfl : Wi = Wi' := funext fun h => funext fun k => h2 h k
  obtain rfl : Wj = Wj' := funext fun h => funext fun k => h3 h k
  obtain rfl : b1 = b1' := funext h4
  obtain rfl : W2 = W2' := funext fun k => funext fun q => h5 k q
  obtain rfl : b2 = b2' := funext h6
  obtain rfl : W3 = W3' := funext h7
  subst h8 hi hj
  rfl

/-- The result array, entry by entry, from the argument arrays. -/
def result (A0 : (⟨4, ![64, 64, 128, 128]⟩ : Shape).Idx → EReal) (A1 : (⟨2, ![64, 64]⟩ : Shape).Idx → EReal)
    (A2 : (⟨2, ![256, 128]⟩ : Shape).Idx → EReal) (A3 : (⟨1, ![128]⟩ : Shape).Idx → EReal)
    (A4 : (⟨2, ![128, 64]⟩ : Shape).Idx → EReal) (A5 : (⟨1, ![64]⟩ : Shape).Idx → EReal)
    (A6 : (⟨2, ![64, 1]⟩ : Shape).Idx → EReal) (A7 : (⟨1, ![1]⟩ : Shape).Idx → EReal) :
    (⟨3, ![64, 64, 64]⟩ : Shape).Idx → EReal := fun y =>
  adj (fun n c t => A0 (ix4 (⟨(y 0).val, (y 0).isLt⟩ : Fin 64) n c t)) (fun p q => A1 (ix2 p q))
    (fun h k => A2 (ix2 (lo h) k)) (fun h k => A2 (ix2 (hi h) k)) (fun k => A3 (ix1 k)) (fun k q => A4 (ix2 k q))
    (fun q => A5 (ix1 q)) (fun q => A6 (ix2 q (0 : Fin 1))) (A7 (ix1 (0 : Fin 1)))
    (⟨(y 1).val, (y 1).isLt⟩ : Fin 64) (⟨(y 2).val, (y 2).isLt⟩ : Fin 64)

/-- At an index written by coordinates. -/
theorem result_apply (A0 : (⟨4, ![64, 64, 128, 128]⟩ : Shape).Idx → EReal) (A1 : (⟨2, ![64, 64]⟩ : Shape).Idx → EReal)
    (A2 : (⟨2, ![256, 128]⟩ : Shape).Idx → EReal) (A3 : (⟨1, ![128]⟩ : Shape).Idx → EReal)
    (A4 : (⟨2, ![128, 64]⟩ : Shape).Idx → EReal) (A5 : (⟨1, ![64]⟩ : Shape).Idx → EReal)
    (A6 : (⟨2, ![64, 1]⟩ : Shape).Idx → EReal) (A7 : (⟨1, ![1]⟩ : Shape).Idx → EReal) (b i j : Fin 64) :
    result A0 A1 A2 A3 A4 A5 A6 A7 (ix3 b i j)
      = adj (fun n c t => A0 (ix4 b n c t)) (fun p q => A1 (ix2 p q)) (fun h k => A2 (ix2 (lo h) k)) (fun h k => A2 (ix2 (hi h) k))
          (fun k => A3 (ix1 k)) (fun k q => A4 (ix2 k q)) (fun q => A5 (ix1 q)) (fun q => A6 (ix2 q (0 : Fin 1))) (A7 (ix1 (0 : Fin 1))) i j := rfl

end Cert.EdgeAdj

end
-- ==== Proof.KernelValue.lean ====
/-
  The kernel's result array after the run. Grid point `t` handles batch element `t`: its input block of the
  features is batch element `t`'s slab, the weights' blocks are the whole weight arrays at every point, and
  what it writes back is block `t` of the result — the specification's adjacency of that batch element.
  The 64 blocks tile the result array (entry (b, i, j) lies in point `b`'s block), so the array ends as the
  one function `result` of the argument arrays.
-/
import proofs.«173251_j16260746183317_1_alg».proof.Proof.Gen.KernelIdeal.Value
import proofs.«173251_j16260746183317_1_alg».proof.Proof.KernelStages
import proofs.«173251_j16260746183317_1_alg».proof.Proof.EdgeResult

noncomputable section

namespace Cert.EdgeAdj.Kernel

open Cert.KernelIdeal Cert.KernelIdeal.Gen Idealize.ShloMosaic Idealize.ShloMosaic.TcCoe Idealize.ShloMosaic.ValueIdx Idealize.SL.Sem Cert.EdgeAdj
open Idealize.ShloMosaic.Pipeline (Dat)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output block, entry by entry, from the input blocks: the specification's adjacency of
    the one batch element in the features' block; the two loads of the first weight matrix are its two halves. -/
theorem block_apply (x0 : Vec Ideal S1x64x128x128 .f32) (x1 : Vec Ideal S64x64 .f32) (x2 : Vec Ideal S256x128 .f32)
    (x3 : Vec Ideal S128 .f32) (x4 : Vec Ideal S128x64 .f32) (x5 : Vec Ideal S64 .f32) (x6 : Vec Ideal S64x1 .f32)
    (x7 : Vec Ideal S1 .f32) (y : S1x64x64.Idx) :
    out0_8 x0 x1 x2 x3 x4 x5 x6 x7 y
      = adj (fun n c t => x0 (ix4 (0 : Fin 1) n c t)) (fun p q => x1 (ix2 p q)) (fun h k => x2 (ix2 (lo h) k)) (fun h k => x2 (ix2 (hi h) k))
          (fun k => x3 (ix1 k)) (fun k q => x4 (ix2 k q)) (fun q => x5 (ix1 q)) (fun q => x6 (ix2 q (0 : Fin 1))) (x7 (ix1 (0 : Fin 1)))
          (⟨(y 1).val, (y 1).isLt⟩ : Fin 64) (⟨(y 2).val, (y 2).isLt⟩ : Fin 64) := by
  obtain ⟨u, i, j, rfl⟩ : ∃ (u : Fin 1) (i j : Fin 64), y = ix3 u i j := ⟨y 0, y 1, y 2, eq_ix3 y⟩
  unfold out0_8
  rw [View.canon_unit_zero hz3]
  simp only [View.ld_unit_zero (S := S1x64x128x128) hz4, View.ld_unit_zero (S := S64x64) hz2, View.ld_unit_zero (S := S128) hz1,
    View.ld_unit_zero (S := S128x64) hz2, View.ld_unit_zero (S := S64) hz1, View.ld_unit_zero (S := S64x1) hz2, View.ld_unit_zero (S := S1) hz1]
  refine (payload_apply _ _ _ _ _ _ _ _ _ u i j).trans ?_
  refine adj_congr (fun _ _ _ => rfl) (fun _ _ => rfl) (fun h k => ?_) (fun h k => ?_) (fun _ => rfl) (fun _ _ => rfl) (fun _ => rfl) (fun _ => rfl) rfl rfl rfl
  · exact congrArg x2 (funext fun a => Fin.ext (by
      match a with
      | ⟨0, _⟩ => show 0 + 1 * h.val = h.val; omega
      | ⟨1, _⟩ => show 0 + 1 * k.val = k.val; omega))
  · exact congrArg x2 (funext fun a => Fin.ext (by
      match a with
      | ⟨0, _⟩ => show 128 + 1 * h.val = 128 + h.val; omega
      | ⟨1, _⟩ => show 0 + 1 * k.val = k.val; omega))

variable (m : (ℓ : Loc nD τ sig) → Buf (Elt Ideal) ℓ) (ρ : Dev nD → PrngReg)

/-- The printed index maps, decided over the grid: the features' and the result's blocks move with the point along
    the batch axis; every other block stays at the origin. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-- WHAT POINT `t` WRITES BACK is block `t` of `result` of the argument arrays as the region finds them. -/
theorem flushed_eq (c : Dev nD) (t : Fin cfg0.N) :
    (dats m 0 c).flushed 8 t = ((cfg0.win 8).blk t).view.read (Elt Ideal) (result (V m c main_arg0) (V m c main_arg1) (V m c main_arg2) (V m c main_arg3) (V m c main_arg4) (V m c main_arg5) (V m c main_arg6) (V m c main_arg7)) := by
  rw [Cert.KernelIdeal.Value.flushed8]
  funext y
  show out0_8 (iblk m c 0 t) (iblk m c 1 t) (iblk m c 2 t) (iblk m c 3 t) (iblk m c 4 t) (iblk m c 5 t) (iblk m c 6 t) (iblk m c 7 t) y = result (V m c main_arg0) (V m c main_arg1) (V m c main_arg2) (V m c main_arg3) (V m c main_arg4) (V m c main_arg5) (V m c main_arg6) (V m c main_arg7) (((cfg0.win 8).blk t).view.emb y)
  refine (block_apply (iblk m c 0 t) (iblk m c 1 t) (iblk m c 2 t) (iblk m c 3 t) (iblk m c 4 t) (iblk m c 5 t) (iblk m c 6 t) (iblk m c 7 t) y).trans ?_
  obtain ⟨e00, e01, e02, e03, e10, e11, e20, e21, e30, e40, e41, e50, e60, e61, e70, e80, e81, e82⟩ := idx_facts t
  have hy0 : (y 0).val < 1 := (y 0).isLt
  unfold result
  refine adj_congr (fun n c' t' => ?_) (fun p q => ?_) (fun h k => ?_) (fun h k => ?_) (fun k => ?_) (fun k q => ?_) (fun q => ?_) (fun q => ?_) ?_ ?_ ?_
  · show V m c main_arg0 (((cfg0.win 0).blk t).view.emb (ix4 (0 : Fin 1) n c' t')) = V m c main_arg0 _
    refine congrArg _ (funext fun a => Fin.ext ?_)
    match a with
    | ⟨0, _⟩ => show win0_0.index t (0 : Fin 4) * 1 + 1 * 0 = win0_8.index t (0 : Fin 3) * 1 + 1 * (y 0).val; omega
    | ⟨1, _⟩ => show win0_0.index t (1 : Fin 4) * 64 + 1 * n.val = n.val; omega
    | ⟨2, _⟩ => show win0_0.index t (2 : Fin 4) * 128 + 1 * c'.val = c'.val; omega
    | ⟨3, _⟩ => show win0_0.index t (3 : Fin 4) * 128 + 1 * t'.val = t'.val; omega
  · show V m c main_arg1 (((cfg0.win 1).blk t).view.emb (ix2 p q)) = V m c main_arg1 _
    refine congrArg _ (funext fun a => Fin.ext ?_)
    match a with
    | ⟨0, _⟩ => show win0_1.index t (0 : Fin 2) * 64 + 1 * p.val = p.val; omega
    | ⟨1, _⟩ => show win0_1.index t (1 : Fin 2) * 64 + 1 * q.val = q.val; omega
  · show V m c main_arg2 (((cfg0.win 2).blk t).view.emb (ix2 (lo h) k)) = V m c main_arg2 _
    refine congrArg _ (funext fun a => Fin.ext ?_)
    match a with
    | ⟨0, _⟩ => show win0_2.index t (0 : Fin 2) * 256 + 1 * (lo h).val = (lo h).val; omega
    | ⟨1, _⟩ => show win0_2.index t (1 : Fin 2) * 128 + 1 * k.val = k.val; omega
  · show V m c main_arg2 (((cfg0.win 2).blk t).view.emb (ix2 (hi h) k)) = V m c main_arg2 _
    refine congrArg _ (funext fun a => Fin.ext ?_)
    match a with
    | ⟨0, _⟩ => show win0_2.index t (0 : Fin 2) * 256 + 1 * (hi h).val = (hi h).val; omega
    | ⟨1, _⟩ => show win0_2.index t (1 : Fin 2) * 128 + 1 * k.val = k.val; omega
  · show V m c main_arg3 (((cfg0.win 3).blk t).view.emb (ix1 k)) = V m c main_arg3 _
    refine congrArg _ (funext fun a => Fin.ext ?_)
    match a with
    | ⟨0, _⟩ => show win0_3.index t (0 : Fin 1) * 128 + 1 * k.val = k.val; omega
  · show V m c main_arg4 (((cfg0.win 4).blk t).view.emb (ix2 k q)) = V m c main_arg4 _
    refine congrArg _ (funext fun a => Fin.ext ?_)
    match a with
    | ⟨0, _⟩ => show win0_4.index t (0 : Fin 2) * 128 + 1 * k.val = k.val; omega
    | ⟨1, _⟩ => show win0_4.index t (1 : Fin 2) * 64 + 1 * q.val = q.val; omega
  · show V m c main_arg5 (((cfg0.win 5).blk t).view.emb (ix1 q)) = V m c main_arg5 _
    refine congrArg _ (funext fun a => Fin.ext ?_)
    match a with
    | ⟨0, _⟩ => show win0_5.index t (0 : Fin 1) * 64 + 1 * q.val = q.val; omega
  · show V m c main_arg6 (((cfg0.win 6).blk t).view.emb (ix2 q (0 : Fin 1))) = V m c main_arg6 _
    refine congrArg _ (funext fun a => Fin.ext ?_)
    match a with
    | ⟨0, _⟩ => show win0_6.index t (0 : Fin 2) * 64 + 1 * q.val = q.val; omega
    | ⟨1, _⟩ => show win0_6.index t (1 : Fin 2) * 1 + 1 * 0 = 0; omega
  · show V m c main_arg7 (((cfg0.win 7).blk t).view.emb (ix1 (0 : Fin 1))) = V m c main_arg7 _
    refine congrArg _ (funext fun a => Fin.ext ?_)
    match a with
    | ⟨0, _⟩ => show win0_7.index t (0 : Fin 1) * 1 + 1 * 0 = 0; omega
  · refine Fin.ext ?_
    show (y 1).val = win0_8.index t (1 : Fin 3) * 64 + 1 * (y 1).val
    omega
  · refine Fin.ext ?_
    show (y 2).val = win0_8.index t (2 : Fin 3) * 64 + 1 * (y 2).val
    omega

/-- An index of the result array is in point `t`'s block iff each coordinate is in the block's range on its axis. -/
theorem mem_blk (t : Fin cfg0.N) (i : S64x64x64.Idx) :
    i ∈ ((cfg0.win 8).blk t).view.set ↔ ∀ a : Fin 3, win0_8.index t a * S1x64x64.size a ≤ (i a).val ∧ (i a).val < win0_8.index t a * S1x64x64.size a + S1x64x64.size a := by
  show i ∈ ((View.whole main_v0).slice (win0_8.rect t)).set ↔ _
  rw [View.set_slice_whole, Rect.mem_set_unit]
  exact Iff.rfl

/-- Entry (b, i, j) of the result array lies in the block of point `b`. -/
theorem cover (i : S64x64x64.Idx) : ∃ t : Fin cfg0.N, (cfg0.win 8).flush t = true ∧ i ∈ ((cfg0.win 8).blk t).view.set := by
  have h0 : (i 0).val < 64 := (i 0).isLt
  have h1 : (i 1).val < 64 := (i 1).isLt
  have h2 : (i 2).val < 64 := (i 2).isLt
  have hN : grid0.N = 64 := N_0
  let t : Fin cfg0.N := ⟨(i 0).val, by show (i 0).val < grid0.N; omega⟩
  obtain ⟨e00, e01, e02, e03, e10, e11, e20, e21, e30, e40, e41, e50, e60, e61, e70, e80, e81, e82⟩ := idx_facts t
  have ht : t.val = (i 0).val := rfl
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 64 ≤ (i 1).val ∧ (i 1).val < win0_8.index t (1 : Fin 3) * 64 + 64; omega
  | ⟨2, _⟩ => show win0_8.index t (2 : Fin 3) * 64 ≤ (i 2).val ∧ (i 2).val < win0_8.index t (2 : Fin 3) * 64 + 64; omega

/-- THE RESULT ARRAY after the run is `result` of the argument arrays. -/
theorem final (c : Dev nD) : (dats m 0 c).arrAt 8 cfg0.N = result (V m c main_arg0) (V m c main_arg1) (V m c main_arg2) (V m c main_arg3) (V m c main_arg4) (V m c main_arg5) (V m c main_arg6) (V m c main_arg7) :=
  (dats m 0 c).arrAt_eq_of_cover 8 _ (fun t _ => flushed_eq m c t) cover

/-- The kernel's run, read: every weakly fair execution ends with the result array at `result` of the argument arrays
    as launched, and the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.EdgeAdj.Kernel

end
-- ==== Proof.RefValue.lean ====
/-
  The reference program's result, read one entry at a time, is the row-normalized edge adjacency of the
  specification.

  The program is a chain of array operations; each stage's entry at explicit coordinates is read from its
  operands' entries. Walking the chain bottom up, one lemma per function of the specification: the time
  mean of a node's channel, the two projections of a node, an edge's two hidden vectors and its score, the mix
  with the learned adjacency, its symmetrization, the self loop, and the row normalization.
-/
import proofs.«173251_j16260746183317_1_alg».proof.Proof.Gen.ReferenceIdeal.Read
import proofs.«173251_j16260746183317_1_alg».proof.Proof.EdgeSpec
import Idealize.ShloMosaic.Lib.ValueIdx
import Idealize.ShloMosaic.PureOps.Ideal.Laws

noncomputable section

namespace Cert.EdgeAdj.Ref

open Idealize.ShloMosaic Idealize.ShloMosaic.ValueIdx Cert.ReferenceIdeal Cert.ReferenceIdeal.Gen Cert.ReferenceIdeal.Read

/-- The arguments' types, by the shapes the program declares. -/
abbrev A0 := (⟨S64x64x128x128, .f32⟩ : BufTy).Contents (Elt Ideal)
abbrev A1 := (⟨S64x64, .f32⟩ : BufTy).Contents (Elt Ideal)
abbrev A2 := (⟨S256x128, .f32⟩ : BufTy).Contents (Elt Ideal)
abbrev A3 := (⟨S128, .f32⟩ : BufTy).Contents (Elt Ideal)
abbrev A4 := (⟨S128x64, .f32⟩ : BufTy).Contents (Elt Ideal)
abbrev A5 := (⟨S64, .f32⟩ : BufTy).Contents (Elt Ideal)
abbrev A6 := (⟨S64x1, .f32⟩ : BufTy).Contents (Elt Ideal)
abbrev A7 := (⟨S1, .f32⟩ : BufTy).Contents (Elt Ideal)

/-! ## The node vector: the time sum divided by the number of time steps -/

theorem node_apply (X0 : A0) (b n : Fin 64) (c : Fin 128) :
    val_main_v2 (F := Ideal) X0 (ix3 b n c) = node (fun n c t => X0 (ix4 b n c t)) n c := by
  rw [val_main_v2_apply, val_main_v0_apply, val_main_v1_apply, val_main_cst_apply, val_main_cst_0_apply,
    Ideal.hostDivf_def, Ideal.ofBits_def, Ideal.ofBits_def, Ideal.ofBits_zero_f32, zero_add]
  unfold node
  refine congrArg (Ideal.div · _) (Finset.sum_congr rfl fun t _ => ?_)
  exact congrArg X0 (funext fun a => Fin.ext (by
    match a with | ⟨0, _⟩ => rfl | ⟨1, _⟩ => rfl | ⟨2, _⟩ => rfl | ⟨3, _⟩ => rfl))

/-! ## The two projections of a node -/

theorem projI_apply (X0 : A0) (X2 : A2) (b n : Fin 64) (k : Fin 128) :
    val_main_v5 (F := Ideal) X0 X2 (ix3 b n k)
      = projI (fun n c t => X0 (ix4 b n c t)) (fun h k => X2 (ix2 (lo h) k)) n k := by
  rw [val_main_v5_apply]
  unfold projI
  refine Finset.sum_congr rfl fun h _ => ?_
  have e1 : lidx_main_v5 (ix3 b n k) h = ix3 b n h := funext fun a => Fin.ext (by
    match a with | ⟨0, _⟩ => rfl | ⟨1, _⟩ => rfl | ⟨2, _⟩ => rfl)
  have e2 : idx_main_v3 (ridx_main_v5 (ix3 b n k) h) = ix2 (lo h) k := funext fun a => Fin.ext (by
    match a with | ⟨0, _⟩ => rfl | ⟨1, _⟩ => rfl)
  rw [val_main_v3_apply, e1, e2, node_apply]

theorem projJ_apply (X0 : A0) (X2 : A2) (b n : Fin 64) (k : Fin 128) :
    val_main_v6 (F := Ideal) X0 X2 (ix3 b n k)
      = projJ (fun n c t => X0 (ix4 b n c t)) (fun h k => X2 (ix2 (hi h) k)) n k := by
  rw [val_main_v6_apply]
  unfold projJ
  refine Finset.sum_congr rfl fun h _ => ?_
  have e1 : lidx_main_v6 (ix3 b n k) h = ix3 b n h := funext fun a => Fin.ext (by
    match a with | ⟨0, _⟩ => rfl | ⟨1, _⟩ => rfl | ⟨2, _⟩ => rfl)
  have e2 : idx_main_v4 (ridx_main_v6 (ix3 b n k) h) = ix2 (hi h) k := funext fun a => Fin.ext (by
    match a with | ⟨0, _⟩ => rfl | ⟨1, _⟩ => rfl)
  rw [val_main_v4_apply, e1, e2, node_apply]

/-! ## An edge's first hidden vector -/

theorem hid_apply (X0 : A0) (X2 : A2) (X3 : A3) (b i j : Fin 64) (k : Fin 128) :
    val_main_v15 (F := Ideal) X0 X2 X3 (ix4 b i j k)
      = hid (fun n c t => X0 (ix4 b n c t)) (fun h k => X2 (ix2 (lo h) k)) (fun h k => X2 (ix2 (hi h) k))
          (fun k => X3 (ix1 k)) i j k := by
  have e1 : idx_main_v7 (idx_main_v9 (ix4 b i j k)) = ix3 b i k := funext fun a => Fin.ext (by
    match a with | ⟨0, _⟩ => rfl | ⟨1, _⟩ => rfl | ⟨2, _⟩ => rfl)
  have e2 : idx_main_v8 (idx_main_v10 (ix4 b i j k)) = ix3 b j k := funext fun a => Fin.ext (by
    match a with | ⟨0, _⟩ => rfl | ⟨1, _⟩ => rfl | ⟨2, _⟩ => rfl)
  have e3 : idx_main_v12 (idx_main_v13 (ix4 b i j k)) = ix1 k := funext fun a => Fin.ext (by
    match a with | ⟨0, _⟩ => rfl)
  rw [val_main_v15_apply, val_main_v14_apply, val_main_v11_apply, val_main_v9_apply, val_main_v7_apply,
    val_main_v10_apply, val_main_v8_apply, val_main_v13_apply, val_main_v12_apply, val_main_call0_v0_apply,
    val_main_call0_cst_apply, e1, e2, e3, projI_apply, projJ_apply,
    Ideal.maximumf_def, Ideal.addf_def, Ideal.addf_def, Ideal.ofBits_def, Ideal.ofBits_zero_f32]
  rfl

/-! ## Its second hidden vector -/

theorem hid2_apply (X0 : A0) (X2 : A2) (X3 : A3) (X4 : A4) (X5 : A5) (b i j q : Fin 64) :
    val_main_v20 (F := Ideal) X0 X2 X3 X4 X5 (ix4 b i j q)
      = hid2 (fun n c t => X0 (ix4 b n c t)) (fun h k => X2 (ix2 (lo h) k)) (fun h k => X2 (ix2 (hi h) k))
          (fun k => X3 (ix1 k)) (fun k q => X4 (ix2 k q)) (fun q => X5 (ix1 q)) i j q := by
  have e3 : idx_main_v17 (idx_main_v18 (ix4 b i j q)) = ix1 q := funext fun a => Fin.ext (by
    match a with | ⟨0, _⟩ => rfl)
  rw [val_main_v20_apply, val_main_v19_apply, val_main_v16_apply, val_main_v18_apply, val_main_v17_apply,
    val_main_call1_v0_apply, val_main_call1_cst_apply, e3,
    Ideal.maximumf_def, Ideal.addf_def, Ideal.ofBits_def, Ideal.ofBits_zero_f32]
  unfold hid2
  refine congrArg (max · 0) (congrArg (· + _) (Finset.sum_congr rfl fun k _ => ?_))
  have e1 : lidx_main_v16 (ix4 b i j q) k = ix4 b i j k := funext fun a => Fin.ext (by
    match a with | ⟨0, _⟩ => rfl | ⟨1, _⟩ => rfl | ⟨2, _⟩ => rfl | ⟨3, _⟩ => rfl)
  have e2 : ridx_main_v16 (ix4 b i j q) k = ix2 k q := funext fun a => Fin.ext (by
    match a with | ⟨0, _⟩ => rfl | ⟨1, _⟩ => rfl)
  rw [e1, e2, hid_apply]

/-! ## The edge's score -/

theorem feat_apply (X0 : A0) (X2 : A2) (X3 : A3) (X4 : A4) (X5 : A5) (X6 : A6) (X7 : A7) (b i j : Fin 64) :
    val_main_v25 (F := Ideal) X0 X2 X3 X4 X5 X6 X7 (ix3 b i j)
      = feat (fun n c t => X0 (ix4 b n c t)) (fun h k => X2 (ix2 (lo h) k)) (fun h k => X2 (ix2 (hi h) k))
          (fun k => X3 (ix1 k)) (fun k q => X4 (ix2 k q)) (fun q => X5 (ix1 q)) (fun q => X6 (ix2 q (0 : Fin 1)))
          (X7 (ix1 (0 : Fin 1))) i j := by
  -- the reshape drops the trailing axis of extent one: entry (b, i, j) is entry (b, i, j, 0)
  have e0 : idx_main_v25 (ix3 b i j) = ix4 b i j (0 : Fin 1) := funext fun a => Fin.ext (by
    have hb := b.isLt; have hi := i.isLt; have hj := j.isLt
    match a with
    | ⟨0, _⟩ =>
      show ((b.val * 64 + i.val) * 64 + j.val) / 4096 = b.val
      omega
    | ⟨1, _⟩ =>
      show ((b.val * 64 + i.val) * 64 + j.val) / 64 % 64 = i.val
      omega
    | ⟨2, _⟩ =>
      show ((b.val * 64 + i.val) * 64 + j.val) / 1 % 64 = j.val
      omega
    | ⟨3, _⟩ => rfl)
  have e3 : idx_main_v22 (idx_main_v23 (ix4 b i j (0 : Fin 1))) = ix1 (0 : Fin 1) := funext fun a => Fin.ext (by
    match a with | ⟨0, _⟩ => rfl)
  rw [val_main_v25_apply, e0, val_main_v24_apply, val_main_v21_apply, val_main_v23_apply, val_main_v22_apply, e3,
    Ideal.addf_def]
  unfold feat
  refine congrArg (· + _) (Finset.sum_congr rfl fun q _ => ?_)
  have e1 : lidx_main_v21 (ix4 b i j (0 : Fin 1)) q = ix4 b i j q := funext fun a => Fin.ext (by
    match a with | ⟨0, _⟩ => rfl | ⟨1, _⟩ => rfl | ⟨2, _⟩ => rfl | ⟨3, _⟩ => rfl)
  have e2 : ridx_main_v21 (ix4 b i j (0 : Fin 1)) q = ix2 q (0 : Fin 1) := funext fun a => Fin.ext (by
    match a with | ⟨0, _⟩ => rfl | ⟨1, _⟩ => rfl)
  rw [e1, e2, hid2_apply]

/-! ## The score mixed with the learned adjacency -/

theorem mix_apply (X0 : A0) (X1 : A1) (X2 : A2) (X3 : A3) (X4 : A4) (X5 : A5) (X6 : A6) (X7 : A7) (b i j : Fin 64) :
    val_main_v32 (F := Ideal) X0 X1 X2 X3 X4 X5 X6 X7 (ix3 b i j)
      = mix (fun n c t => X0 (ix4 b n c t)) (fun p q => X1 (ix2 p q)) (fun h k => X2 (ix2 (lo h) k))
          (fun h k => X2 (ix2 (hi h) k)) (fun k => X3 (ix1 k)) (fun k q => X4 (ix2 k q)) (fun q => X5 (ix1 q))
          (fun q => X6 (ix2 q (0 : Fin 1))) (X7 (ix1 (0 : Fin 1))) i j := by
  have e1 : idx_main_v26 (idx_main_v31 (ix3 b i j)) = ix2 i j := funext fun a => Fin.ext (by
    match a with | ⟨0, _⟩ => rfl | ⟨1, _⟩ => rfl)
  rw [val_main_v32_apply, val_main_v31_apply, val_main_v28_apply, val_main_v27_apply, val_main_cst_1_apply,
    val_main_v26_apply, e1, val_main_v30_apply, val_main_v29_apply, val_main_cst_2_apply, feat_apply,
    Ideal.addf_def, Ideal.mulf_def, Ideal.mulf_def, Ideal.ofBits_def]
  rfl

/-! ## Symmetrized and clipped -/

theorem sym_apply (X0 : A0) (X1 : A1) (X2 : A2) (X3 : A3) (X4 : A4) (X5 : A5) (X6 : A6) (X7 : A7) (b i j : Fin 64) :
    val_main_v37 (F := Ideal) X0 X1 X2 X3 X4 X5 X6 X7 (ix3 b i j)
      = sym (fun n c t => X0 (ix4 b n c t)) (fun p q => X1 (ix2 p q)) (fun h k => X2 (ix2 (lo h) k))
          (fun h k => X2 (ix2 (hi h) k)) (fun k => X3 (ix1 k)) (fun k q => X4 (ix2 k q)) (fun q => X5 (ix1 q))
          (fun q => X6 (ix2 q (0 : Fin 1))) (X7 (ix1 (0 : Fin 1))) i j := by
  -- the transposed entry (b, i, j) is the entry (b, j, i)
  have e1 : idx_main_v33 (ix3 b i j) = ix3 b j i := funext fun a => Fin.ext (by
    match a with | ⟨0, _⟩ => rfl | ⟨1, _⟩ => rfl | ⟨2, _⟩ => rfl)
  rw [val_main_v37_apply, val_main_v36_apply, val_main_v34_apply, val_main_v33_apply, e1, mix_apply, mix_apply,
    val_main_v35_apply, val_main_cst_3_apply, val_main_call2_v0_apply, val_main_call2_cst_apply,
    Ideal.maximumf_def, Ideal.hostDivf_def, Ideal.addf_def, Ideal.ofBits_def, Ideal.ofBits_def,
    Ideal.ofBits_zero_f32, div_two]
  rfl

/-! ## The self loop -/

/-- The comparison of the row and column counters, converted to a float, is the identity matrix's entry. -/
theorem eye_apply (i j : Fin 64) : val_main_v43 (F := Ideal) (ix2 i j) = eye i j := by
  rw [val_main_v43_apply, val_main_v42_apply, val_main_v41_apply, val_main_v38_apply, val_main_v39_apply,
    val_main_v40_apply, val_main_c_apply]
  exact eye_convert i j

theorem loop_apply (X0 : A0) (X1 : A1) (X2 : A2) (X3 : A3) (X4 : A4) (X5 : A5) (X6 : A6) (X7 : A7) (b i j : Fin 64) :
    val_main_v46 (F := Ideal) X0 X1 X2 X3 X4 X5 X6 X7 (ix3 b i j)
      = loop (fun n c t => X0 (ix4 b n c t)) (fun p q => X1 (ix2 p q)) (fun h k => X2 (ix2 (lo h) k))
          (fun h k => X2 (ix2 (hi h) k)) (fun k => X3 (ix1 k)) (fun k q => X4 (ix2 k q)) (fun q => X5 (ix1 q))
          (fun q => X6 (ix2 q (0 : Fin 1))) (X7 (ix1 (0 : Fin 1))) i j := by
  have e1 : idx_main_v44 (idx_main_v45 (ix3 b i j)) = ix2 i j := funext fun a => Fin.ext (by
    match a with | ⟨0, _⟩ => rfl | ⟨1, _⟩ => rfl)
  rw [val_main_v46_apply, val_main_v45_apply, val_main_v44_apply, e1, eye_apply, sym_apply, Ideal.addf_def]
  rfl

/-! ## The row normalization -/

/-- A row's sum. -/
theorem rowsum_apply (X0 : A0) (X1 : A1) (X2 : A2) (X3 : A3) (X4 : A4) (X5 : A5) (X6 : A6) (X7 : A7) (b i : Fin 64) :
    val_main_v47 (F := Ideal) X0 X1 X2 X3 X4 X5 X6 X7 (ix2 b i)
      = ∑ j' : Fin 64, loop (fun n c t => X0 (ix4 b n c t)) (fun p q => X1 (ix2 p q)) (fun h k => X2 (ix2 (lo h) k))
          (fun h k => X2 (ix2 (hi h) k)) (fun k => X3 (ix1 k)) (fun k q => X4 (ix2 k q)) (fun q => X5 (ix1 q))
          (fun q => X6 (ix2 q (0 : Fin 1))) (X7 (ix1 (0 : Fin 1))) i j' := by
  rw [val_main_v47_apply, val_main_cst_4_apply, Ideal.ofBits_def, Ideal.ofBits_zero_f32, zero_add]
  refine Finset.sum_congr rfl fun k _ => ?_
  have e1 : idx_main_v47 (ix2 b i) k = ix3 b i k := funext fun a => Fin.ext (by
    match a with | ⟨0, _⟩ => rfl | ⟨1, _⟩ => rfl | ⟨2, _⟩ => rfl)
  rw [e1, loop_apply]

/-- The reference program's entry (b, i, j) is the specification's entry (i, j) for batch element b. -/
theorem ref_apply (X0 : (⟨S64x64x128x128, .f32⟩ : BufTy).Contents (Elt Ideal)) (X1 : (⟨S64x64, .f32⟩ : BufTy).Contents (Elt Ideal)) (X2 : (⟨S256x128, .f32⟩ : BufTy).Contents (Elt Ideal)) (X3 : (⟨S128, .f32⟩ : BufTy).Contents (Elt Ideal)) (X4 : (⟨S128x64, .f32⟩ : BufTy).Contents (Elt Ideal)) (X5 : (⟨S64, .f32⟩ : BufTy).Contents (Elt Ideal)) (X6 : (⟨S64x1, .f32⟩ : BufTy).Contents (Elt Ideal)) (X7 : (⟨S1, .f32⟩ : BufTy).Contents (Elt Ideal)) (b i j : Fin 64) :
    val_main_v52 (F := Ideal) X0 X1 X2 X3 X4 X5 X6 X7 (ix3 b i j)
      = Cert.EdgeAdj.adj (fun n c t => X0 (ix4 b n c t)) (fun p q => X1 (ix2 p q)) (fun h k => X2 (ix2 (Cert.EdgeAdj.lo h) k)) (fun h k => X2 (ix2 (Cert.EdgeAdj.hi h) k)) (fun k => X3 (ix1 k)) (fun k q => X4 (ix2 k q)) (fun q => X5 (ix1 q)) (fun q => X6 (ix2 q (0 : Fin 1))) (X7 (ix1 (0 : Fin 1))) i j := by
  have e1 : idx_main_v48 (idx_main_v51 (ix3 b i j)) = ix2 b i := funext fun a => Fin.ext (by
    match a with | ⟨0, _⟩ => rfl | ⟨1, _⟩ => rfl)
  rw [val_main_v52_apply, val_main_v51_apply, val_main_v50_apply, val_main_v48_apply, e1, rowsum_apply,
    val_main_v49_apply, val_main_cst_5_apply, loop_apply, Ideal.hostDivf_def, Ideal.addf_def, Ideal.ofBits_def]
  rfl

end Cert.EdgeAdj.Ref

end
-- ==== Proof.lean ====
/-
  The certificate of the edge-adjacency kernel against its jnp reference.

  Both programs compute, for each of 64 batch elements, a row-normalized adjacency of 64 nodes: the time mean
  of the node features, an edge network over node pairs (two projections of the first weight matrix's halves,
  two clipped hidden layers, a score), mixed half and half with a learned adjacency, symmetrized, clipped,
  given self loops and divided row by row by the row sum plus a small constant (Proof/EdgeSpec.lean states it
  entry by entry; Proof/EdgeResult.lean as one function `result` of the eight argument arrays).

  The kernel handles one batch element per grid point; its body's arithmetic is the specification's chain
  (Proof/KernelStages.lean, over the products of Proof/KernelProducts.lean and the re-layings of
  Proof/EdgeLayout.lean), and its 64 output blocks tile the result array (Proof/KernelValue.lean). The
  reference's chain of array operations, read entry by entry, is the same function (Proof/RefValue.lean).
  The two differ only in spelling: the kernel multiplies the symmetrized sum by ½ where the reference divides
  by 2, and writes the identity matrix as a selection where the reference converts a comparison; on the
  extended reals these agree everywhere, so no finiteness of the inputs is used.

  The three frames are the generated ones (the reference's is its run with the result dropped); the idealized
  kernel is the kernel's own text read over the extended reals, so `preserves` has nothing to state.
-/
import proofs.«173251_j16260746183317_1_alg».proof.Defs
import proofs.«173251_j16260746183317_1_alg».proof.Proof.Gen.Kernel
import proofs.«173251_j16260746183317_1_alg».proof.Proof.Gen.Kernel.Skeleton
import proofs.«173251_j16260746183317_1_alg».proof.Proof.Gen.Kernel.Launch
import proofs.«173251_j16260746183317_1_alg».proof.Proof.Gen.Kernel.Points
import proofs.«173251_j16260746183317_1_alg».proof.Proof.Gen.Kernel.Frame
import proofs.«173251_j16260746183317_1_alg».proof.Proof.Gen.KernelIdeal
import proofs.«173251_j16260746183317_1_alg».proof.Proof.Gen.KernelIdeal.Skeleton
import proofs.«173251_j16260746183317_1_alg».proof.Proof.Gen.KernelIdeal.Launch
import proofs.«173251_j16260746183317_1_alg».proof.Proof.Gen.KernelIdeal.Points
import proofs.«173251_j16260746183317_1_alg».proof.Proof.Gen.KernelIdeal.Frame
import proofs.«173251_j16260746183317_1_alg».proof.Proof.Gen.ReferenceIdeal
import proofs.«173251_j16260746183317_1_alg».proof.Proof.Gen.Pre_finite_inputs
import proofs.«173251_j16260746183317_1_alg».proof.Proof.Gen.KernelIdeal.Value
import proofs.«173251_j16260746183317_1_alg».proof.Proof.Gen.ReferenceIdeal.Run
import proofs.«173251_j16260746183317_1_alg».proof.Proof.Gen.ReferenceIdeal.Read
import proofs.«173251_j16260746183317_1_alg».proof.Proof.KernelValue
import proofs.«173251_j16260746183317_1_alg».proof.Proof.RefValue
import Idealize.ShloMosaic.Adequacy
import Idealize.ShloMosaic.Init

noncomputable section

namespace Cert.Proof

open Idealize.ShloMosaic Idealize.ShloMosaic.ValueIdx Idealize.SL.Sem

/-- The reference's last stage is `result` of its argument arrays: entry (b, i, j) of both is the specification's
    adjacency of batch element `b` at (i, j). -/
theorem ref_is_result (X0 : (⟨Cert.ReferenceIdeal.S64x64x128x128, .f32⟩ : BufTy).Contents (Elt Ideal))
    (X1 : (⟨Cert.ReferenceIdeal.S64x64, .f32⟩ : BufTy).Contents (Elt Ideal))
    (X2 : (⟨Cert.ReferenceIdeal.S256x128, .f32⟩ : BufTy).Contents (Elt Ideal))
    (X3 : (⟨Cert.ReferenceIdeal.S128, .f32⟩ : BufTy).Contents (Elt Ideal))
    (X4 : (⟨Cert.ReferenceIdeal.S128x64, .f32⟩ : BufTy).Contents (Elt Ideal))
    (X5 : (⟨Cert.ReferenceIdeal.S64, .f32⟩ : BufTy).Contents (Elt Ideal))
    (X6 : (⟨Cert.ReferenceIdeal.S64x1, .f32⟩ : BufTy).Contents (Elt Ideal))
    (X7 : (⟨Cert.ReferenceIdeal.S1, .f32⟩ : BufTy).Contents (Elt Ideal)) :
    Cert.ReferenceIdeal.Read.val_main_v52 (F := Ideal) X0 X1 X2 X3 X4 X5 X6 X7 = Cert.EdgeAdj.result X0 X1 X2 X3 X4 X5 X6 X7 := by
  funext y
  obtain ⟨b, i, j, rfl⟩ : ∃ (b i j : Fin 64), y = ix3 b i j := ⟨y 0, y 1, y 2, eq_ix3 y⟩
  rw [Cert.EdgeAdj.Ref.ref_apply, Cert.EdgeAdj.result_apply]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals both programs, run from memories agreeing on the arguments, end with the result array at
    `result` of the arguments: the kernel by its 64 blocks, the reference by its chain of stages. -/
theorem algebraic : Cert.algebraic_KernelIdeal_ReferenceIdeal := by
  intro m ρ m' ρ' _ hagree
  refine ⟨fun c => Cert.EdgeAdj.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.EdgeAdj.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact ref_is_result _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
